-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x768 : Shape := ⟨3, ![16, 256, 768]⟩
abbrev S2048x768 : Shape := ⟨2, ![2048, 768]⟩
abbrev S_ : Shape := ⟨0, ![]⟩

class Facts : Prop where
  bcast_S_S16x256x768 : S_.BroadcastsInDim S16x256x768 (![] : Fin 0 → Fin S16x256x768.rank)
  reducesTo_S16x256x768_S_d0_1_2 : S16x256x768.ReducesTo [0, 1, 2] S_
  h_S_ : 0 < S_.numel
  bcast_S_S2048x768 : S_.BroadcastsInDim S2048x768 (![] : Fin 0 → Fin S2048x768.rank)
  reducesTo_S2048x768_S_d0_1 : S2048x768.ReducesTo [0, 1] S_

variable [Facts]

def fn {F : FTy → Type} [FloatOps F] (main_arg0 : FVec F S16x256x768 .f32) (main_arg1 : FVec F S2048x768 .f32) : IVec S_ 1 :=
  let main_v0 : FVec F S16x256x768 .f32 := Host.absf main_arg0
  let main_cst : FVec F S_ .f32 := constant S_ .f32 0x7F800000#32
  let main_v1 : FVec F S16x256x768 .f32 := broadcastInDim S16x256x768 ![] bcast_S_S16x256x768 main_cst
  let main_v2 : IVec S16x256x768 1 := cmpf .olt main_v0 main_v1
  let main_c : IVec S_ 1 := constantI S_ 1 1#1
  let main_v3 : IVec S_ 1 := (fun x v => Host.reduce IntOp.andi x v reducesTo_S16x256x768_S_d0_1_2 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  main_v8
-- ==== Kernel.lean ====
abbrev S16x256x768 : Shape := ⟨3, ![16, 256, 768]⟩
abbrev S2048x768 : Shape := ⟨2, ![2048, 768]⟩
abbrev S4096x768 : Shape := ⟨2, ![4096, 768]⟩
abbrev S4096x2048 : Shape := ⟨2, ![4096, 2048]⟩
abbrev S512x768 : Shape := ⟨2, ![512, 768]⟩
abbrev S1024x768 : Shape := ⟨2, ![1024, 768]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S16x256x2048 : Shape := ⟨3, ![16, 256, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x256x768, .f32⟩
  | .hbm, ⟨1, _⟩ => ⟨S2048x768, .f32⟩
  | .hbm, ⟨2, _⟩ => ⟨S4096x768, .f32⟩
  | .hbm, ⟨3, _⟩ => ⟨S4096x2048, .f32⟩
  | .hbm, ⟨4, _⟩ => ⟨S16x256x2048, .f32⟩
  | .local _ .vmem, ⟨0, _⟩ => ⟨S512x768, .f32⟩
  | .local _ .vmem, ⟨1, _⟩ => ⟨S512x768, .f32⟩
  | .local _ .vmem, ⟨2, _⟩ => ⟨S1024x768, .f32⟩
  | .local _ .vmem, ⟨3, _⟩ => ⟨S1024x768, .f32⟩
  | .local _ .vmem, ⟨4, _⟩ => ⟨S512x1024, .f32⟩
  | .local _ .vmem, ⟨5, _⟩ => ⟨S512x1024, .f32⟩
  | _, _ => ⟨S16x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x256x768_S4096x768 : S16x256x768.ShapeCasts S4096x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  reduces_S512x768_S512 : S512x768.Reduces [1] S512
  shapeCasts_S512_S512x1 : S512.ShapeCasts S512x1
  reduces_S1024x768_S1024 : S1024x768.Reduces [1] S1024
  shapeCasts_S1024_S1x1024 : S1024.ShapeCasts S1x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S4096x2048_S16x256x2048 : S4096x2048.ShapeCasts S16x256x2048
  dot_S512x768_S1024x768_S512x1024_1_1_0_0_n_n_wf : DotDims.WF S512x768 S1024x768 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S2048x768.size a
  hwx0_1 : ∀ i : grid0.Coords, EltTy.bits .f32 = 32 ∨ (Rect.block (s := S2048x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x2048.size a
  hwx0_2 : ∀ i : grid0.Coords, EltTy.bits .f32 = 32 ∨ (Rect.block (s := S4096x2048) S512x1024.size (cc0_transform_2 i) (hinb0_2 i)).WholeWords (EltTy.packing .f32)

variable [Facts₀]

def dot_S512x768_S1024x768_S512x1024_1_1_0_0_n_n : DotDims S512x768 S1024x768 S512x1024 where
  lhsContracting := [1]
  rhsContracting := [1]
  lhsNonContracting := [0]
  rhsNonContracting := [0]
  lhsBatch := []
  rhsBatch := []
  wf := dot_S512x768_S1024x768_S512x1024_1_1_0_0_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x768 : Shape := ⟨3, ![16, 256, 768]⟩
abbrev S2048x768 : Shape := ⟨2, ![2048, 768]⟩
abbrev S_ : Shape := ⟨0, ![]⟩
abbrev S16x256 : Shape := ⟨2, ![16, 256]⟩
abbrev S16x256x1 : Shape := ⟨3, ![16, 256, 1]⟩
abbrev S2048 : Shape := ⟨1, ![2048]⟩
abbrev S16x256x2048 : Shape := ⟨3, ![16, 256, 2048]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16x256x768, .f32⟩
  | .hbm, ⟨1, _⟩ => ⟨S2048x768, .f32⟩
  | .hbm, ⟨2, _⟩ => ⟨S16x256x768, .f32⟩
  | .hbm, ⟨3, _⟩ => ⟨S_, .f32⟩
  | .hbm, ⟨4, _⟩ => ⟨S16x256, .f32⟩
  | .hbm, ⟨5, _⟩ => ⟨S16x256x1, .f32⟩
  | .hbm, ⟨6, _⟩ => ⟨S2048x768, .f32⟩
  | .hbm, ⟨7, _⟩ => ⟨S_, .f32⟩
  | .hbm, ⟨8, _⟩ => ⟨S2048, .f32⟩
  | .hbm, ⟨9, _⟩ => ⟨S16x256x2048, .f32⟩
  | .hbm, ⟨10, _⟩ => ⟨S1x1x2048, .f32⟩
  | .hbm, ⟨11, _⟩ => ⟨S16x256x2048, .f32⟩
  | .hbm, ⟨12, _⟩ => ⟨S16x256x2048, .f32⟩
  | .hbm, ⟨13, _⟩ => ⟨S16x256x2048, .f32⟩
  | .hbm, ⟨14, _⟩ => ⟨S_, .f32⟩
  | .hbm, ⟨15, _⟩ => ⟨S16x256x2048, .f32⟩
  | .hbm, ⟨16, _⟩ => ⟨S16x256x2048, .f32⟩
  | .hbm, ⟨17, _⟩ => ⟨S16x256x2048, .f32⟩
  | _, _ => ⟨S16x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16x256x768_S16x256_d2 : S16x256x768.ReducesTo [2] S16x256
  h_S_ : 0 < S_.numel
  bcast_S16x256_S16x256x1_0_1 : S16x256.BroadcastsInDim S16x256x1 (![0, 1] : Fin 2 → Fin S16x256x1.rank)
  reducesTo_S2048x768_S2048_d1 : S2048x768.ReducesTo [1] S2048
  bcast_S2048_S1x1x2048_2 : S2048.BroadcastsInDim S1x1x2048 (![2] : Fin 1 → Fin S1x1x2048.rank)
  bcast_S16x256x1_S16x256x2048_0_1_2 : S16x256x1.BroadcastsInDim S16x256x2048 (![0, 1, 2] : Fin 3 → Fin S16x256x2048.rank)
  bcast_S1x1x2048_S16x256x2048_0_1_2 : S1x1x2048.BroadcastsInDim S16x256x2048 (![0, 1, 2] : Fin 3 → Fin S16x256x2048.rank)
  bcast_S_S16x256x2048 : S_.BroadcastsInDim S16x256x2048 (![] : Fin 0 → Fin S16x256x2048.rank)
  dot_S16x256x768_S2048x768_S16x256x2048_2_1_01_0_n_n_wf : DotDims.WF S16x256x768 S2048x768 S16x256x2048 [2] [1] [0, 1] [0] [] []

variable [Facts₀]

def dot_S16x256x768_S2048x768_S16x256x2048_2_1_01_0_n_n : DotDims S16x256x768 S2048x768 S16x256x2048 where
  lhsContracting := [2]
  rhsContracting := [1]
  lhsNonContracting := [0, 1]
  rhsNonContracting := [0]
  lhsBatch := []
  rhsBatch := []
  wf := dot_S16x256x768_S2048x768_S16x256x2048_2_1_01_0_n_n_wf

class Facts : Prop extends Facts₀ where

variable [Facts]
-- ==== Proof.Spec.lean ====
/-
  Squared Euclidean distances between two families of vectors, as one function of the two arrays.

  For rows x_r and prototypes p_k of length 768 the table holds at (r, k)
      (Σ_v x_r[v]² + Σ_v p_k[v]²) − c · Σ_v x_r[v] · p_k[v],
  the expansion of Σ_v (x_r[v] − p_k[v])², with c the float constant 2.0 (kept as its word, never evaluated) and the
  sums and products those of the extended reals. `flat` states it over 4096 flattened rows, `batched` over a
  [16, 256] batch of rows; flat row 256·b + n is batch row (b, n), which is what the row-major reshapes on the two
  ends of the flat table say (`batched_eq_reshape`).
-/
import Idealize.ShloMosaic.PureOps.Ideal
import Idealize.ShloMosaic.Lib.ValueIdx
import Idealize.ShloMosaic.Lib.Pipeline.Value

noncomputable section

namespace Cert.SqDist

open Idealize.ShloMosaic Idealize.ShloMosaic.ValueIdx

abbrev Sx3 : Shape := ⟨3, ![16, 256, 768]⟩
abbrev Sx2 : Shape := ⟨2, ![4096, 768]⟩
abbrev Sp : Shape := ⟨2, ![2048, 768]⟩
abbrev So2 : Shape := ⟨2, ![4096, 2048]⟩
abbrev So3 : Shape := ⟨3, ![16, 256, 2048]⟩

/-- The constant the inner product is scaled by: the word of the float 2.0. -/
abbrev scale : EReal := Ideal.ofBits .f32 0x40000000#32

/-- One entry of the table, from a row's and a prototype's entries along the shared axis. -/
def entry (a b : Fin 768 → EReal) : EReal :=
  ((∑ v : Fin 768, a v * a v) + (∑ v : Fin 768, b v * b v)) - scale * ∑ v : Fin 768, a v * b v

/-- The table over flattened rows. -/
def flat (X : Sx2.Idx → EReal) (P : Sp.Idx → EReal) : So2.Idx → EReal :=
  fun j => entry (fun v => X (ix2 (j 0) v)) (fun v => P (ix2 (j 1) v))

/-- The table over the batch of rows. -/
def batched (x : Sx3.Idx → EReal) (P : Sp.Idx → EReal) : So3.Idx → EReal :=
  fun i => entry (fun v => x (ix3 (i 0) (i 1) v)) (fun v => P (ix2 (i 2) v))

/-- Flat row 256·b + n of the reshaped batch is batch row (b, n): both sit at row-major position
    (256·b + n)·768 + v. -/
theorem reshape_rows (x : Sx3.Idx → EReal) (h : Sx3.ShapeCasts Sx2) (b : Fin 16) (n : Fin 256) (v : Fin 768)
    (r : Fin 4096) (hr : r.val = b.val * 256 + n.val) :
    shapeCast Sx2 x h (ix2 r v) = x (ix3 b n v) := by
  refine shapeCast_apply x h (ix2 r v) (ix3 b n v) ?_
  rw [Shape.rowMajor_val_three, Shape.rowMajor_val_two]
  show (b.val * 256 + n.val) * 768 + v.val = r.val * 768 + v.val
  rw [hr]

/-- The flat table of the reshaped batch, reshaped back to [16, 256, 2048], is the batched table: entry (b, n, k)
    of the result is flat entry (256·b + n, k), whose row is batch row (b, n). -/
theorem batched_eq_reshape (x : Sx3.Idx → EReal) (P : Sp.Idx → EReal) (h1 : Sx3.ShapeCasts Sx2) (h2 : So2.ShapeCasts So3) :
    shapeCast So3 (flat (shapeCast Sx2 x h1) P) h2 = batched x P := by
  funext i
  have hb : (i 0).val < 16 := (i 0).isLt
  have hn : (i 1).val < 256 := (i 1).isLt
  have hk : (i 2).val < 2048 := (i 2).isLt
  have hr : (i 0).val * 256 + (i 1).val < 4096 := by omega
  refine (shapeCast_apply (flat (shapeCast Sx2 x h1) P) h2 i
    (ix2 (⟨(i 0).val * 256 + (i 1).val, hr⟩ : Fin 4096) (⟨(i 2).val, hk⟩ : Fin 2048)) ?_).trans ?_
  · rw [Shape.rowMajor_val_two, Shape.rowMajor_val_three]
    show ((i 0).val * 256 + (i 1).val) * 2048 + (i 2).val = ((i 0).val * 256 + (i 1).val) * 2048 + (i 2).val
    rfl
  · show entry (fun v => shapeCast Sx2 x h1 (ix2 (⟨(i 0).val * 256 + (i 1).val, hr⟩ : Fin 4096) v))
        (fun v => P (ix2 (⟨(i 2).val, hk⟩ : Fin 2048) v))
      = entry (fun v => x (ix3 (i 0) (i 1) v)) (fun v => P (ix2 (i 2) v))
    have e : (fun v => shapeCast Sx2 x h1 (ix2 (⟨(i 0).val * 256 + (i 1).val, hr⟩ : Fin 4096) v))
        = fun v => x (ix3 (i 0) (i 1) v) :=
      funext fun v => reshape_rows x h1 ⟨(i 0).val, hb⟩ ⟨(i 1).val, hn⟩ v _ rfl
    rw [e]
    rfl

end Cert.SqDist

end
-- ==== Proof.RefValue.lean ====
/-
  The reference's result is the batched table of squared distances.

  The reference squares and sums each batch row and each prototype along the shared axis (from a zero initial value),
  broadcasts the two sums over the [16, 256, 2048] result, adds them, and subtracts 2.0 times the contraction of the
  batch with the prototypes over the shared axis. Entry (b, n, k) is therefore
  (0 + Σ_v x[b,n,v]²) + (0 + Σ_v p[k,v]²) − 2.0 · Σ_v x[b,n,v]·p[k,v], the table's entry once the two zeros are dropped.
-/
import proofs.«101204_j56968446214767_1_alg».proof.Proof.Gen.ReferenceIdeal.Read
import proofs.«101204_j56968446214767_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Where the broadcast row sum reads the batch: entry (b, n, k) reads row (b, n). -/
theorem row_idx (i : S16x256x2048.Idx) (k : Fin 768) :
    idx_main_v1 (idx_main_v2 (idx_main_v7 i)) k = (ix3 (i 0) (i 1) k : Cert.SqDist.Sx3.Idx) :=
  funext fun a => Fin.ext (by match a with | ⟨0, _⟩ => rfl | ⟨1, _⟩ => rfl | ⟨2, _⟩ => rfl)

/-- Where the broadcast prototype sum reads the prototypes: entry (b, n, k) reads prototype k. -/
theorem proto_idx (i : S16x256x2048.Idx) (k : Fin 768) :
    idx_main_v4 (idx_main_v6 (idx_main_v8 i)) k = (ix2 (i 2) k : Cert.SqDist.Sp.Idx) :=
  funext fun a => Fin.ext (by match a with | ⟨0, _⟩ => rfl | ⟨1, _⟩ => rfl)

/-- The contraction's left operand index. -/
theorem dot_lidx (i : S16x256x2048.Idx) (k : Fin 768) :
    lidx_main_v5 i k = (ix3 (i 0) (i 1) k : Cert.SqDist.Sx3.Idx) :=
  funext fun a => Fin.ext (by match a with | ⟨0, _⟩ => rfl | ⟨1, _⟩ => rfl | ⟨2, _⟩ => rfl)

/-- The contraction's right operand index. -/
theorem dot_ridx (i : S16x256x2048.Idx) (k : Fin 768) :
    ridx_main_v5 i k = (ix2 (i 2) k : Cert.SqDist.Sp.Idx) :=
  funext fun a => Fin.ext (by match a with | ⟨0, _⟩ => rfl | ⟨1, _⟩ => rfl)

/-- The reference's last stage, as a function of the two argument arrays, is the batched table. -/
theorem ref_eq (x : (⟨S16x256x768, .f32⟩ : BufTy).Contents (Elt Ideal)) (p : (⟨S2048x768, .f32⟩ : BufTy).Contents (Elt Ideal)) :
    val_main_v12 (F := Ideal) x p = Cert.SqDist.batched x p := by
  funext i
  rw [val_main_v12_apply, val_main_v9_apply, val_main_v11_apply, val_main_v7_apply, val_main_v2_apply, val_main_v1_apply,
    val_main_v8_apply, val_main_v6_apply, val_main_v4_apply, val_main_v10_apply, val_main_v5_apply]
  unfold Cert.SqDist.batched Cert.SqDist.entry
  simp only [val_main_v0_apply, val_main_v3_apply, val_main_cst_apply, val_main_cst_0_apply, val_main_cst_1_apply,
    Ideal.subf_def, Ideal.addf_def, Ideal.mulf_def, Ideal.ofBits_def, Ideal.ofBits_zero_f32, zero_add,
    row_idx, proto_idx, dot_lidx, dot_ridx]

end Cert.ReferenceIdeal.RefValue

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.Payload.lean ====
/-
  The kernel body's stored value at one entry of its block.

  The body loads a block of 512 rows x and a block of 1024 prototypes p, both of length 768, and stores
      (rowsum(x·x) as a column + rowsum(p·p) as a row) − 2.0 · (x pᵀ),
  the product taken after a change of float format that is the identity on the extended reals, into a zero
  accumulator. At entry (r, k) this is Σ_v x[r,v]² + Σ_v p[k,v]² − 2.0 · Σ_v x[r,v]·p[k,v]: a lane sum read at an
  entry is the sum over the lane axis, the column and row broadcasts pick the row's and the prototype's sum, and the
  product contracts axis 1 of both operands.
-/
import proofs.«101204_j56968446214767_1_alg».proof.Proof.Gen.KernelIdeal.Skeleton
import proofs.«101204_j56968446214767_1_alg».proof.Proof.Spec
import proofs.«101204_j56968446214767_1_alg».proof.Proof.LibLayout
import proofs.«101204_j56968446214767_1_alg».proof.Proof.LibLayoutCol
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-- A sum along axis 1 of an [A, K] matrix, read at row r, is the sum of the row's K entries. -/
theorem rowSum_apply {A K : Nat} (src : FVec Ideal ⟨2, ![A, K]⟩ .f32) (h : Shape.Reduces ⟨2, ![A, K]⟩ [1] ⟨1, ![A]⟩)
    (hφ : FKind.Formats .f32) (hacc : (0x00000000#32 : BitVec 32) = 0x00000000#32) (r : Fin A) :
    multiReduction .add [1] ⟨1, ![A]⟩ src 0x00000000#32 h hφ hacc (ix1 r) = ∑ k : Fin K, src (ix2 r k) := by
  refine (Ideal.multiReduction_add_single src 0x00000000#32 h hφ hacc (ix1 r)).trans ?_
  refine Finset.sum_congr rfl fun k _ => congrArg src ?_
  funext a
  apply Fin.ext
  match a with
  | ⟨0, _⟩ => rfl
  | ⟨1, _⟩ => rfl

/-! The product's operand indices: output entry (r, k) and contraction coordinate v read the left operand at (r, v)
    and the right at (k, v). -/

theorem lhs_axis0 (i : S512x1024.Idx) (q : dot_S512x768_S1024x768_S512x1024_1_1_0_0_n_n.contr.Idx) :
    (dot_S512x768_S1024x768_S512x1024_1_1_0_0_n_n.lhsIdx i q 0).val = (i 0).val := by
  unfold DotDims.lhsIdx
  rw [dif_neg (show ¬(0 : Fin S512x768.rank) ∈ dot_S512x768_S1024x768_S512x1024_1_1_0_0_n_n.lhsBatch by decide), dif_pos (show (0 : Fin S512x768.rank) ∈ dot_S512x768_S1024x768_S512x1024_1_1_0_0_n_n.lhsNonContracting by decide)]
  rfl
theorem lhs_axis1 (i : S512x1024.Idx) (q : dot_S512x768_S1024x768_S512x1024_1_1_0_0_n_n.contr.Idx) :
    (dot_S512x768_S1024x768_S512x1024_1_1_0_0_n_n.lhsIdx i q 1).val = (q ⟨0, by decide⟩).val :=
  dot_S512x768_S1024x768_S512x1024_1_1_0_0_n_n.lhsIdx_val_of_single rfl i q
theorem rhs_axis0 (i : S512x1024.Idx) (q : dot_S512x768_S1024x768_S512x1024_1_1_0_0_n_n.contr.Idx) :
    (dot_S512x768_S1024x768_S512x1024_1_1_0_0_n_n.rhsIdx i q 0).val = (i 1).val := by
  unfold DotDims.rhsIdx
  rw [dif_neg (show ¬(0 : Fin S1024x768.rank) ∈ dot_S512x768_S1024x768_S512x1024_1_1_0_0_n_n.rhsBatch by decide), dif_pos (show (0 : Fin S1024x768.rank) ∈ dot_S512x768_S1024x768_S512x1024_1_1_0_0_n_n.rhsNonContracting by decide)]
  rfl
theorem rhs_axis1 (i : S512x1024.Idx) (q : dot_S512x768_S1024x768_S512x1024_1_1_0_0_n_n.contr.Idx) :
    (dot_S512x768_S1024x768_S512x1024_1_1_0_0_n_n.rhsIdx i q 1).val = (q ⟨0, by decide⟩).val :=
  dot_S512x768_S1024x768_S512x1024_1_1_0_0_n_n.rhsIdx_val_of_single rfl i q

/-- The product into a zero accumulator, at entry (r, k): Σ_v l[r,v] · r[k,v]. -/
theorem matmul_entry (l : FVec Ideal S512x768 .bf16) (r : FVec Ideal S1024x768 .bf16) (p : Fin 512) (q : Fin 1024) :
    matmul dot_S512x768_S1024x768_S512x1024_1_1_0_0_n_n none l r (constant S512x1024 .f32 0x00000000#32) (ix2 p q)
      = ∑ k : Fin 768, l (ix2 p k) * r (ix2 q k) := by
  simp only [matmul]
  rw [Ideal.matmul_constant_zero_apply, ← Equiv.sum_comp (ValueIdx.contrEquiv1 dot_S512x768_S1024x768_S512x1024_1_1_0_0_n_n 768 rfl rfl).symm]
  refine Finset.sum_congr rfl fun k _ => ?_
  have hk := ValueIdx.contrEquiv1_symm_val dot_S512x768_S1024x768_S512x1024_1_1_0_0_n_n 768 rfl rfl k
  have el : dot_S512x768_S1024x768_S512x1024_1_1_0_0_n_n.lhsIdx (ix2 p q) ((ValueIdx.contrEquiv1 dot_S512x768_S1024x768_S512x1024_1_1_0_0_n_n 768 rfl rfl).symm k) = ix2 p k := funext fun a => Fin.ext (by
    match a with
    | ⟨0, _⟩ => exact lhs_axis0 _ _
    | ⟨1, _⟩ => exact (lhs_axis1 _ _).trans hk)
  have er : dot_S512x768_S1024x768_S512x1024_1_1_0_0_n_n.rhsIdx (ix2 p q) ((ValueIdx.contrEquiv1 dot_S512x768_S1024x768_S512x1024_1_1_0_0_n_n 768 rfl rfl).symm k) = ix2 q k := funext fun a => Fin.ext (by
    match a with
    | ⟨0, _⟩ => exact rhs_axis0 _ _
    | ⟨1, _⟩ => exact (rhs_axis1 _ _).trans hk)
  rw [el, er]

/-- The stored value at entry (r, k) of the block, from the two loaded blocks. -/
theorem pay_apply (x0 : Vec Ideal S512x768 .f32) (x1 : Vec Ideal S1024x768 .f32) (p : Fin 512) (q : Fin 1024) :
    k0_pay1 (F := Ideal) x0 x1 (ix2 p q) = Cert.SqDist.entry (fun v => x0 (ix2 p v)) (fun v => x1 (ix2 q v)) := by
  unfold k0_pay1 Cert.SqDist.entry
  dsimp only
  rw [shapeCast_self]
  rw [subf_apply, addf_apply, mulf_apply, broadcast_apply]
  refine congrArg₂ (· - ·) (congrArg₂ (· + ·) ?_ ?_) (congrArg₂ (· * ·) rfl ?_)
  · exact (Cert.Lib.LayoutCol.bcastCol_apply _ _ _ p q).trans (rowSum_apply _ _ _ _ p)
  · exact (Cert.Lib.Layout.bcastRow_apply _ _ _ p q).trans (rowSum_apply _ _ _ _ q)
  · exact matmul_entry _ _ p q

end Cert.KernelIdeal.Payload

end
-- ==== Proof.KernelValue.lean ====
/-
  What the kernel's program leaves in its result array.

  The program flattens the [16, 256, 768] batch to 4096 rows, runs the kernel on an 8 × 2 grid — point (a, b) loads
  rows 512·a … 512·a + 511 and prototypes 1024·b … 1024·b + 1023 and writes block (a, b) of a [4096, 2048] table — and
  reshapes the table to [16, 256, 2048]. Each point writes its block of the flat table of squared distances of the
  flattened rows (the stored value at an entry reads exactly that entry's row and prototype); the sixteen blocks tile
  the table, so the table is the flat one; and the two row-major reshapes turn it into the batched one.
-/
import proofs.«101204_j56968446214767_1_alg».proof.Proof.Gen.KernelIdeal.Frame
import proofs.«101204_j56968446214767_1_alg».proof.Proof.Payload
import proofs.«101204_j56968446214767_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One point's block -/

theorem origin : (![0, 0] : Fin 2 → Nat) = fun _ => 0 := funext fun a => by fin_cases a <;> rfl

/-- The index maps over the grid: the rows' block index is the output's first, the prototypes' its second, both
    start at column 0, and the output's block indices range over 8 × 2. -/
theorem block_indices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 1 :=
  (by decide +kernel : ∀ t : Fin grid0.N, _)

/-- Every block (a, b) of the 8 × 2 tiling is some point's. -/
theorem block_onto : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- The stored value at block entry y is the flat table's entry i of arrays X, P, once the loaded blocks' row y 0 and
    prototype y 1 are row i 0 of X and prototype i 1 of P. -/
theorem block_entry (x0 : Vec Ideal S512x768 .f32) (x1 : Vec Ideal S1024x768 .f32)
    (X : Cert.SqDist.Sx2.Idx → EReal) (Pr : Cert.SqDist.Sp.Idx → EReal) (y : S512x1024.Idx) (i : Cert.SqDist.So2.Idx)
    (hx0 : ∀ v : Fin 768, x0 (ix2 (y 0) v) = X (ix2 (i 0) v))
    (hx1 : ∀ v : Fin 768, x1 (ix2 (y 1) v) = Pr (ix2 (i 1) v)) :
    k0_pay1 (F := Ideal) x0 x1 y = Cert.SqDist.flat X Pr i :=
  calc k0_pay1 (F := Ideal) x0 x1 y = k0_pay1 (F := Ideal) x0 x1 (ix2 (y 0) (y 1)) := congrArg _ (eq_ix2 y)
    _ = Cert.SqDist.entry (fun v => x0 (ix2 (y 0) v)) (fun v => x1 (ix2 (y 1) v)) := Payload.pay_apply x0 x1 (y 0) (y 1)
    _ = Cert.SqDist.flat X Pr i := congrArg₂ Cert.SqDist.entry (funext hx0) (funext hx1)

/-- What point t writes back is block t of the flat table of the arrays as the region finds them. -/
theorem flushed_eq (c : Dev nD) (t : Fin cfg0.N) :
    (dats m 0 c).flushed 2 t
      = ((cfg0.win 2).blk t).view.read (Elt Ideal) (Cert.SqDist.flat (V m c main_v0) (V m c main_arg1)) := by
  show (cfg0.win 2).cut (grid0.coords t) ((dats m 0 c).after 2 t) = _
  rw [after0_2]
  unfold out0_2
  rw [View.canon_unit_zero origin]
  simp only [View.ld_unit_zero (S := S512x768) origin, View.ld_unit_zero (S := S1024x768) origin]
  obtain ⟨e0, e1, e2, e3, e4, e5⟩ := block_indices t
  funext j
  show k0_pay1 (F := Ideal) (iblk m c 0 t) (iblk m c 1 t) j
    = Cert.SqDist.flat (V m c main_v0) (V m c main_arg1) (((cfg0.win 2).blk t).view.emb j)
  refine block_entry (iblk m c 0 t) (iblk m c 1 t) (V m c main_v0) (V m c main_arg1) j (((cfg0.win 2).blk t).view.emb j) ?_ ?_
  · intro v
    show V m c main_v0 (((cfg0.win 0).blk t).view.emb (ix2 (j 0) v))
      = V m c main_v0 (ix2 ((((cfg0.win 2).blk t).view.emb j) 0) v)
    refine congrArg (V m c main_v0) (funext fun a => Fin.ext ?_)
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 768 + 1 * v.val = v.val
      omega
  · intro v
    show V m c main_arg1 (((cfg0.win 1).blk t).view.emb (ix2 (j 1) v))
      = V m c main_arg1 (ix2 ((((cfg0.win 2).blk t).view.emb j) 1) v)
    refine congrArg (V m c main_arg1) (funext fun a => Fin.ext ?_)
    match a with
    | ⟨0, _⟩ =>
      show win0_1.index t (0 : Fin 2) * 1024 + 1 * (j 1).val = win0_2.index t (1 : Fin 2) * 1024 + 1 * (j 1).val
      omega
    | ⟨1, _⟩ =>
      show win0_1.index t (1 : Fin 2) * 768 + 1 * v.val = v.val
      omega

/-! ## The sixteen blocks tile the table -/

/-- An entry is in point t's block iff each coordinate is in the block's range on its axis. -/
theorem mem_block (t : Fin cfg0.N) (i : S4096x2048.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- Entry (r, k) is in the block of the point whose block index is (r / 512, k / 1024). -/
theorem covered (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  obtain ⟨t, ht⟩ := block_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The table after the region is the flat table of the arrays the region found. -/
theorem table_eq (c : Dev nD) :
    (dats m 0 c).arrAt 2 cfg0.N = Cert.SqDist.flat (V m c main_v0) (V m c main_arg1) :=
  (dats m 0 c).arrAt_eq_of_cover 2 (Cert.SqDist.flat (V m c main_v0) (V m c main_arg1))
    (fun t _ => flushed_eq m c t) covered

/-! ## The reshapes around the region -/

/-- The rows the region finds are the batch, flattened row-major. -/
theorem rows_eq (c : Dev nD) :
    (V m c main_v0 : S4096x768.Idx → EReal)
      = shapeCast S4096x768 (m ((c : Thread nD τ).loc main_arg0)) shapeCasts_S16x256x768_S4096x768 := by
  show StableHlo.after hostOps0 (fun b => m (c, b)) (Proc.devRef .tc main_v0) = _
  after_results
  rfl

/-- The result array is the table, reshaped row-major to [16, 256, 2048]. -/
theorem result_eq (c : Dev nD) :
    (Pipeline.afterTail₀ cfgs (dats m) 0 (V0 m) [hostOps1] c main_v2 : S16x256x2048.Idx → EReal)
      = shapeCast S16x256x2048 ((dats m 0 c).arrAt 2 cfg0.N) shapeCasts_S4096x2048_S16x256x2048 := by
  unfold Pipeline.afterTail₀
  show StableHlo.after hostOps1 _ (Proc.devRef .tc main_v2) = _
  after_results
  exact congrArg (fun A : S4096x2048.Idx → EReal => shapeCast S16x256x2048 A shapeCasts_S4096x2048_S16x256x2048)
    (Pipeline.withArrays_arr spec0 launch0.win.arr_inj c (V0 m c) (fun w => (dats m 0 c).arrAt w cfg0.N) 2)

/-! ## The run -/

/-- The result array after the run is the batched table of the two arguments. -/
theorem result_batched (c : Dev nD) :
    (Pipeline.afterTail₀ cfgs (dats m) 0 (V0 m) [hostOps1] c main_v2 : S16x256x2048.Idx → EReal)
      = Cert.SqDist.batched (m ((c : Thread nD τ).loc main_arg0)) (m ((c : Thread nD τ).loc main_arg1)) := by
  rw [result_eq, table_eq, rows_eq, V_main_arg1]
  exact Cert.SqDist.batched_eq_reshape _ _ _ _

/-- Every weakly fair execution of the program terminates with the result array at the batched table of the
    arguments and both arguments as launched. -/
theorem run : θ_run defs (onTc (τ := τ) (main (F := Ideal))) ⟨m, fun _ => 0, ρ⟩ fun r => ∀ c : Dev nD,
      r.2.mem ((c : Thread nD τ).loc main_v2)
        = Cert.SqDist.batched (m ((c : Thread nD τ).loc main_arg0)) (m ((c : Thread nD τ).loc main_arg1))
      ∧ r.2.mem ((c : Thread nD τ).loc main_arg1) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    have keep1 : r.2.mem ((c : Thread nD τ).loc main_arg1) = m ((c : Thread nD τ).loc main_arg1) :=
      ((h c).1 1).trans (((dats m 0 c).arrAt_in 1 rfl _).trans ((A_eq m c 1).trans (V_main_arg1 m c)))
    ⟨((h c).2 main_v2 (Pipeline.mem_restRefs_of main_v2 (by decide) (by decide))).trans (result_batched m c),
      keep1,
      ((h c).2 main_arg0 (Pipeline.mem_restRefs_of main_arg0 (by decide) (by decide))).trans (W_main_arg0 m (dats m) c),
      keep1⟩)
    (run_main m ρ)

end Cert.KernelIdeal.KernelValue

end
-- ==== Proof.lean ====
/-
  The kernel computes the table of squared Euclidean distances between a [16, 256] batch of vectors x and 2048
  prototypes p of length 768 through the expansion |x − p|² = Σ x² + Σ p² − 2 · Σ x·p, tile by tile over the flattened
  batch, and returns the prototypes beside it; the reference computes the same expansion on the whole arrays.

  On the extended reals the two programs are one function of their arguments: both add the row's and the prototype's
  sum of squares and subtract the constant 2.0 times their inner product, in that grouping, so no law beyond reading
  each side at an entry is used and the finiteness of the inputs is never opened. The kernel's change of float format
  before its product is the identity there, its product goes into a zero accumulator, and its sixteen blocks tile the
  flat [4096, 2048] table, which the row-major reshapes on both ends turn into the [16, 256, 2048] result
  (Proof/Spec.lean: the table; Proof/Payload.lean: one stored entry; Proof/KernelValue.lean: the blocks, the reshapes
  and the run; Proof/RefValue.lean: the reference). The idealized kernel is the kernel's own text read on the extended
  reals, so the idealization has nothing to restate.
-/
import proofs.«101204_j56968446214767_1_alg».proof.Defs
import proofs.«101204_j56968446214767_1_alg».proof.Proof.Gen.Kernel
import proofs.«101204_j56968446214767_1_alg».proof.Proof.Gen.Kernel.Skeleton
import proofs.«101204_j56968446214767_1_alg».proof.Proof.Gen.Kernel.Launch
import proofs.«101204_j56968446214767_1_alg».proof.Proof.Gen.Kernel.Points
import proofs.«101204_j56968446214767_1_alg».proof.Proof.Gen.Kernel.Frame
import proofs.«101204_j56968446214767_1_alg».proof.Proof.Gen.KernelIdeal
import proofs.«101204_j56968446214767_1_alg».proof.Proof.Gen.KernelIdeal.Skeleton
import proofs.«101204_j56968446214767_1_alg».proof.Proof.Gen.KernelIdeal.Launch
import proofs.«101204_j56968446214767_1_alg».proof.Proof.Gen.KernelIdeal.Points
import proofs.«101204_j56968446214767_1_alg».proof.Proof.Gen.KernelIdeal.Frame
import proofs.«101204_j56968446214767_1_alg».proof.Proof.Gen.ReferenceIdeal
import proofs.«101204_j56968446214767_1_alg».proof.Proof.Gen.ReferenceIdeal.Run
import proofs.«101204_j56968446214767_1_alg».proof.Proof.Gen.ReferenceIdeal.Read
import proofs.«101204_j56968446214767_1_alg».proof.Proof.Gen.Pre_finite_inputs
import proofs.«101204_j56968446214767_1_alg».proof.Proof.Spec
import proofs.«101204_j56968446214767_1_alg».proof.Proof.RefValue
import proofs.«101204_j56968446214767_1_alg».proof.Proof.KernelValue
import Idealize.ShloMosaic.Adequacy
import Idealize.ShloMosaic.Init

noncomputable section

namespace Cert.Proof

open Idealize.ShloMosaic Idealize.ShloMosaic.TcCoe Idealize.SL.Sem

/-- The kernel's program runs and keeps its arguments, at the word level. -/
theorem frame_kernel : Cert.frame_Kernel := fun m ρ _ => Cert.Kernel.Gen.frame m ρ

/-- The same on the extended reals. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the batched table of squared distances of the shared arguments, and the prototypes. -/
theorem algebraic : Cert.algebraic_KernelIdeal_ReferenceIdeal := by
  intro m ρ m' ρ' _ hagree
  refine ⟨fun c => Cert.SqDist.batched (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => m ((c : Thread Cert.KernelIdeal.nD Cert.KernelIdeal.τ).loc Cert.KernelIdeal.main_arg1),
    Cert.KernelIdeal.KernelValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v12_eq, Cert.ReferenceIdeal.RefValue.ref_eq, (hagree c).1, (hagree c).2]
  · rw [(h c).2.1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
